-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1152x1024 : Shape := ⟨3, ![8, 1152, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1152x1024 : S_.BroadcastsInDim S8x1152x1024 (![] : Fin 0 → Fin S8x1152x1024.rank)
  reducesTo_S8x1152x1024_S_d0_1_2 : S8x1152x1024.ReducesTo [0, 1, 2] S_

variable [Facts]

def fn {F : FTy → Type} [FloatOps F] (main_arg0 : FVec F S8x2048x1024 .f32) (main_arg1 : FVec F S8x1152x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1152x1024 .f32 := Host.absf main_arg1
  let main_cst_0 : FVec F S_ .f32 := constant S_ .f32 0x7F800000#32
  let main_v5 : FVec F S8x1152x1024 .f32 := broadcastInDim S8x1152x1024 ![] bcast_S_S8x1152x1024 main_cst_0
  let main_v6 : IVec S8x1152x1024 1 := cmpf .olt main_v4 main_v5
  let main_c_1 : IVec S_ 1 := constantI S_ 1 1#1
  let main_v7 : IVec S_ 1 := (fun x v => Host.reduce IntOp.andi x v reducesTo_S8x1152x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x1152x1024 : Shape := ⟨3, ![8, 1152, 1024]⟩
abbrev S8x128x9x1024 : Shape := ⟨4, ![8, 128, 9, 1024]⟩
abbrev S8x9x128x1024 : Shape := ⟨4, ![8, 9, 128, 1024]⟩
abbrev S_ : Shape := ⟨0, ![]⟩
abbrev S8x1152 : Shape := ⟨2, ![8, 1152]⟩
abbrev S8x128x9 : Shape := ⟨3, ![8, 128, 9]⟩
abbrev S8x9x128 : Shape := ⟨3, ![8, 9, 128]⟩
abbrev S8x2048x128 : Shape := ⟨3, ![8, 2048, 128]⟩
abbrev S1x256x1024 : Shape := ⟨3, ![1, 256, 1024]⟩
abbrev S1x9x128x1024 : Shape := ⟨4, ![1, 9, 128, 1024]⟩
abbrev S1x9x128 : Shape := ⟨3, ![1, 9, 128]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1x128x1024 : Shape := ⟨4, ![1, 1, 128, 1024]⟩
abbrev S128x1024 : Shape := ⟨2, ![128, 1024]⟩
abbrev S1024x128 : Shape := ⟨2, ![1024, 128]⟩
abbrev S256x128 : Shape := ⟨2, ![256, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 14
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x1152x1024, .f32⟩
  | .hbm, ⟨2, _⟩ => ⟨S8x128x9x1024, .f32⟩
  | .hbm, ⟨3, _⟩ => ⟨S8x9x128x1024, .f32⟩
  | .hbm, ⟨4, _⟩ => ⟨S8x1152x1024, .f32⟩
  | .hbm, ⟨5, _⟩ => ⟨S_, .f32⟩
  | .hbm, ⟨6, _⟩ => ⟨S8x1152, .f32⟩
  | .hbm, ⟨7, _⟩ => ⟨S8x128x9, .f32⟩
  | .hbm, ⟨8, _⟩ => ⟨S8x9x128, .f32⟩
  | .hbm, ⟨9, _⟩ => ⟨S8x2048x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1x9x128x1024, .f32⟩
  | .local _ .vmem, ⟨3, _⟩ => ⟨S1x9x128, .f32⟩
  | .local _ .vmem, ⟨4, _⟩ => ⟨S1x256x128, .f32⟩
  | .local _ .vmem, ⟨5, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x9x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x1152x1024_S8x128x9x1024 : S8x1152x1024.ShapeCasts S8x128x9x1024
  transposes_S8x128x9x1024_S8x9x128x1024_0_2_1_3 : S8x128x9x1024.Transposes [0, 2, 1, 3] S8x9x128x1024
  reducesTo_S8x1152x1024_S8x1152_d2 : S8x1152x1024.ReducesTo [2] S8x1152
  h_S_ : 0 < S_.numel
  shapeCasts_S8x1152_S8x128x9 : S8x1152.ShapeCasts S8x128x9
  transposes_S8x128x9_S8x9x128_0_2_1 : S8x128x9.Transposes [0, 2, 1] S8x9x128
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  reduces_S256x1024_S256 : S256x1024.Reduces [1] S256
  shapeCasts_S256_S256x1 : S256.ShapeCasts S256x1
  inb_S1x9x128x1024_S1x1x128x1024_0_0_0_0 : ∀ a, (![0, 0, 0, 0] : Fin 4 → Nat) a + S1x1x128x1024.size a ≤ S1x9x128x1024.size a
  h_S1x1x128x1024 : 0 < S1x1x128x1024.numel
  shapeCasts_S1x1x128x1024_S128x1024 : S1x1x128x1024.ShapeCasts S128x1024
  transposes_S128x1024_p1_0_S1024x128 : S128x1024.Transposes [1, 0] S1024x128
  inb_S1x9x128_S1x1x128_0_0_0 : ∀ a, (![0, 0, 0] : Fin 3 → Nat) a + S1x1x128.size a ≤ S1x9x128.size a
  h_S1x1x128 : 0 < S1x1x128.numel
  shapeCasts_S1x1x128_S128 : S1x1x128.ShapeCasts S128
  shapeCasts_S128_S1x128 : S128.ShapeCasts S1x128
  broadcasts_S256x1_S256x128 : S256x1.Broadcasts S256x128
  broadcasts_S1x128_S256x128 : S1x128.Broadcasts S256x128
  inb_S1x9x128x1024_S1x1x128x1024_0_1_0_0 : ∀ a, (![0, 1, 0, 0] : Fin 4 → Nat) a + S1x1x128x1024.size a ≤ S1x9x128x1024.size a
  inb_S1x9x128_S1x1x128_0_1_0 : ∀ a, (![0, 1, 0] : Fin 3 → Nat) a + S1x1x128.size a ≤ S1x9x128.size a
  inb_S1x9x128x1024_S1x1x128x1024_0_2_0_0 : ∀ a, (![0, 2, 0, 0] : Fin 4 → Nat) a + S1x1x128x1024.size a ≤ S1x9x128x1024.size a
  inb_S1x9x128_S1x1x128_0_2_0 : ∀ a, (![0, 2, 0] : Fin 3 → Nat) a + S1x1x128.size a ≤ S1x9x128.size a
  inb_S1x9x128x1024_S1x1x128x1024_0_3_0_0 : ∀ a, (![0, 3, 0, 0] : Fin 4 → Nat) a + S1x1x128x1024.size a ≤ S1x9x128x1024.size a
  inb_S1x9x128_S1x1x128_0_3_0 : ∀ a, (![0, 3, 0] : Fin 3 → Nat) a + S1x1x128.size a ≤ S1x9x128.size a
  inb_S1x9x128x1024_S1x1x128x1024_0_4_0_0 : ∀ a, (![0, 4, 0, 0] : Fin 4 → Nat) a + S1x1x128x1024.size a ≤ S1x9x128x1024.size a
  inb_S1x9x128_S1x1x128_0_4_0 : ∀ a, (![0, 4, 0] : Fin 3 → Nat) a + S1x1x128.size a ≤ S1x9x128.size a
  inb_S1x9x128x1024_S1x1x128x1024_0_5_0_0 : ∀ a, (![0, 5, 0, 0] : Fin 4 → Nat) a + S1x1x128x1024.size a ≤ S1x9x128x1024.size a
  inb_S1x9x128_S1x1x128_0_5_0 : ∀ a, (![0, 5, 0] : Fin 3 → Nat) a + S1x1x128.size a ≤ S1x9x128.size a
  inb_S1x9x128x1024_S1x1x128x1024_0_6_0_0 : ∀ a, (![0, 6, 0, 0] : Fin 4 → Nat) a + S1x1x128x1024.size a ≤ S1x9x128x1024.size a
  inb_S1x9x128_S1x1x128_0_6_0 : ∀ a, (![0, 6, 0] : Fin 3 → Nat) a + S1x1x128.size a ≤ S1x9x128.size a
  inb_S1x9x128x1024_S1x1x128x1024_0_7_0_0 : ∀ a, (![0, 7, 0, 0] : Fin 4 → Nat) a + S1x1x128x1024.size a ≤ S1x9x128x1024.size a
  inb_S1x9x128_S1x1x128_0_7_0 : ∀ a, (![0, 7, 0] : Fin 3 → Nat) a + S1x1x128.size a ≤ S1x9x128.size a
  inb_S1x9x128x1024_S1x1x128x1024_0_8_0_0 : ∀ a, (![0, 8, 0, 0] : Fin 4 → Nat) a + S1x1x128x1024.size a ≤ S1x9x128x1024.size a
  inb_S1x9x128_S1x1x128_0_8_0 : ∀ a, (![0, 8, 0] : Fin 3 → Nat) a + S1x1x128.size a ≤ S1x9x128.size a
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  reducesTo_S8x2048x128_S_d0_1_2 : S8x2048x128.ReducesTo [0, 1, 2] S_
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x9x128x1024.size a ≤ S8x9x128x1024.size a
  hwx0_1 : ∀ i : grid0.Coords, EltTy.bits .f32 = 32 ∨ (Rect.block (s := S8x9x128x1024) S1x9x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9x128.size a ≤ S8x9x128.size a
  hwx0_2 : ∀ i : grid0.Coords, EltTy.bits .f32 = 32 ∨ (Rect.block (s := S8x9x128) S1x9x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x2048x128.size a
  hwx0_3 : ∀ i : grid0.Coords, EltTy.bits .f32 = 32 ∨ (Rect.block (s := S8x2048x128) S1x256x128.size (cc0_transform_3 i) (hinb0_3 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x9x128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x9x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1152x1024 : Shape := ⟨3, ![8, 1152, 1024]⟩
abbrev S_ : Shape := ⟨0, ![]⟩
abbrev S8x2048 : Shape := ⟨2, ![8, 2048]⟩
abbrev S8x2048x1 : Shape := ⟨3, ![8, 2048, 1]⟩
abbrev S8x1152 : Shape := ⟨2, ![8, 1152]⟩
abbrev S8x1x1152 : Shape := ⟨3, ![8, 1, 1152]⟩
abbrev S8x2048x1152 : Shape := ⟨3, ![8, 2048, 1152]⟩
abbrev S8x262144x9 : Shape := ⟨3, ![8, 262144, 9]⟩
abbrev S8x262144 : Shape := ⟨2, ![8, 262144]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1152x1024, .f32⟩
  | .hbm, ⟨2, _⟩ => ⟨S8x2048x1024, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x1152x1024, .f32⟩
  | .hbm, ⟨7, _⟩ => ⟨S_, .f32⟩
  | .hbm, ⟨8, _⟩ => ⟨S8x1152, .f32⟩
  | .hbm, ⟨9, _⟩ => ⟨S8x1x1152, .f32⟩
  | .hbm, ⟨10, _⟩ => ⟨S8x2048x1152, .f32⟩
  | .hbm, ⟨11, _⟩ => ⟨S8x2048x1152, .f32⟩
  | .hbm, ⟨12, _⟩ => ⟨S8x2048x1152, .f32⟩
  | .hbm, ⟨13, _⟩ => ⟨S8x2048x1152, .f32⟩
  | .hbm, ⟨14, _⟩ => ⟨S_, .f32⟩
  | .hbm, ⟨15, _⟩ => ⟨S8x2048x1152, .f32⟩
  | .hbm, ⟨16, _⟩ => ⟨S8x2048x1152, .f32⟩
  | .hbm, ⟨17, _⟩ => ⟨S8x2048x1152, .f32⟩
  | .hbm, ⟨18, _⟩ => ⟨S8x262144x9, .f32⟩
  | .hbm, ⟨19, _⟩ => ⟨S_, .f32⟩
  | .hbm, ⟨20, _⟩ => ⟨S8x262144, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  reducesTo_S8x1152x1024_S8x1152_d2 : S8x1152x1024.ReducesTo [2] S8x1152
  bcast_S8x1152_S8x1x1152_0_2 : S8x1152.BroadcastsInDim S8x1x1152 (![0, 2] : Fin 2 → Fin S8x1x1152.rank)
  bcast_S8x2048x1_S8x2048x1152_0_1_2 : S8x2048x1.BroadcastsInDim S8x2048x1152 (![0, 1, 2] : Fin 3 → Fin S8x2048x1152.rank)
  bcast_S8x1x1152_S8x2048x1152_0_1_2 : S8x1x1152.BroadcastsInDim S8x2048x1152 (![0, 1, 2] : Fin 3 → Fin S8x2048x1152.rank)
  bcast_S_S8x2048x1152 : S_.BroadcastsInDim S8x2048x1152 (![] : Fin 0 → Fin S8x2048x1152.rank)
  shapeCasts_S8x2048x1152_S8x262144x9 : S8x2048x1152.ShapeCasts S8x262144x9
  reducesTo_S8x262144x9_S8x262144_d2 : S8x262144x9.ReducesTo [2] S8x262144
  reducesTo_S8x262144_S_d0_1 : S8x262144.ReducesTo [0, 1] S_
  dot_S8x2048x1024_S8x1152x1024_S8x2048x1152_2_2_1_1_0_0_wf : DotDims.WF S8x2048x1024 S8x1152x1024 S8x2048x1152 [2] [2] [1] [1] [0] [0]

variable [Facts₀]

def dot_S8x2048x1024_S8x1152x1024_S8x2048x1152_2_2_1_1_0_0 : DotDims S8x2048x1024 S8x1152x1024 S8x2048x1152 where
  lhsContracting := [2]
  rhsContracting := [2]
  lhsNonContracting := [1]
  rhsNonContracting := [1]
  lhsBatch := [0]
  rhsBatch := [0]
  wf := dot_S8x2048x1024_S8x1152x1024_S8x2048x1152_2_2_1_1_0_0_wf

class Facts : Prop extends Facts₀ where

variable [Facts]
-- ==== Proof.Spec.lean ====
/-
  The mathematics both programs compute, stated once over the two argument arrays.

  For a batch `b`, a query row `n` and a candidate row `m`, the squared distance is
  `|x1[b,n]|² + |x2[b,m]|² - 2 · ⟨x1[b,n], x2[b,m]⟩`, each norm and the inner product a sum over the 1024 features.
  The 1152 candidates are grouped in consecutive runs of nine (candidate `9 g + k` is member `k` of group `g`),
  a group's value is the least of its nine distances, and the result is the sum of all `8 · 2048 · 128` group
  values divided by their count. A minimum of nine terms does not depend on how it is bracketed nor on a
  starting value `⊤`, and a finite sum does not depend on how its index set is laid out: those two facts are all
  that relates the two programs' arrangements.
-/
import Idealize.ShloMosaic.Lib.ValueIdx
import Idealize.ShloMosaic.PureOps.Ideal.Laws

noncomputable section

namespace Cert.Spec

open Idealize.ShloMosaic Idealize.ShloMosaic.ValueIdx

abbrev SX1 : Shape := ⟨3, ![8, 2048, 1024]⟩
abbrev SX2 : Shape := ⟨3, ![8, 1152, 1024]⟩
abbrev SOut : Shape := ⟨3, ![8, 2048, 128]⟩
abbrev SFlat : Shape := ⟨2, ![8, 262144]⟩

/-- The squared norm of query row `n` of batch `b`. -/
def sq1 (x1 : SX1.Idx → EReal) (b : Fin 8) (n : Fin 2048) : EReal := ∑ d : Fin 1024, x1 (ix3 b n d) * x1 (ix3 b n d)

/-- The squared norm of candidate row `m` of batch `b`. -/
def sq2 (x2 : SX2.Idx → EReal) (b : Fin 8) (m : Fin 1152) : EReal := ∑ d : Fin 1024, x2 (ix3 b m d) * x2 (ix3 b m d)

/-- The inner product of query row `n` and candidate row `m` of batch `b`. -/
def cross (x1 : SX1.Idx → EReal) (x2 : SX2.Idx → EReal) (b : Fin 8) (n : Fin 2048) (m : Fin 1152) : EReal :=
  ∑ d : Fin 1024, x1 (ix3 b n d) * x2 (ix3 b m d)

/-- The factor two of the cross term, as both programs spell it. -/
def two : EReal := Ideal.ofBits .f32 0x40000000#32

/-- The squared distance between query row `n` and candidate row `m` of batch `b`. -/
def dist (x1 : SX1.Idx → EReal) (x2 : SX2.Idx → EReal) (b : Fin 8) (n : Fin 2048) (m : Fin 1152) : EReal :=
  (sq1 x1 b n + sq2 x2 b m) - two * cross x1 x2 b n m

/-- Member `k` of group `g` is candidate `9 g + k`. -/
def cand (g : Fin 128) (k : Fin 9) : Fin 1152 := ⟨9 * g.val + k.val, by have := g.isLt; have := k.isLt; omega⟩

@[simp] theorem cand_val (g : Fin 128) (k : Fin 9) : (cand g k).val = 9 * g.val + k.val := rfl

/-- The least of nine values, bracketed from the left. -/
def min9 (d : Fin 9 → EReal) : EReal :=
  min (min (min (min (min (min (min (min (d 0) (d 1)) (d 2)) (d 3)) (d 4)) (d 5)) (d 6)) (d 7)) (d 8)

theorem min9_le (d : Fin 9 → EReal) (k : Fin 9) : min9 d ≤ d k := by
  unfold min9
  fin_cases k <;> simp [min_le_iff]

theorem le_min9 (d : Fin 9 → EReal) (c : EReal) (h : ∀ k, c ≤ d k) : c ≤ min9 d := by
  unfold min9
  simp only [le_min_iff]
  exact ⟨⟨⟨⟨⟨⟨⟨⟨h 0, h 1⟩, h 2⟩, h 3⟩, h 4⟩, h 5⟩, h 6⟩, h 7⟩, h 8⟩

/-- Folding `min` over the nine members from `⊤`, in whatever order, is the left-bracketed minimum. -/
theorem fold_min_top (d : Fin 9 → EReal) : (Finset.univ : Finset (Fin 9)).fold min ⊤ d = min9 d := by
  apply le_antisymm
  · exact le_min9 d _ fun k => (Finset.fold_min_le (d k)).2 (Or.inr ⟨k, Finset.mem_univ k, le_rfl⟩)
  · exact (Finset.le_fold_min (min9 d)).2 ⟨le_top, fun k _ => min9_le d k⟩

/-- The value of group `g` for query row `n` of batch `b`: the least of its nine squared distances. -/
def gmin (x1 : SX1.Idx → EReal) (x2 : SX2.Idx → EReal) (b : Fin 8) (n : Fin 2048) (g : Fin 128) : EReal :=
  min9 fun k => dist x1 x2 b n (cand g k)

/-- The group values laid out as `[8, 2048, 128]`. -/
def outArr (x1 : SX1.Idx → EReal) (x2 : SX2.Idx → EReal) : SOut.Idx → EReal := fun i => gmin x1 x2 (i 0) (i 1) (i 2)

/-- Row `j` of the flat `[8, 262144]` layout is query row `j / 128`, group `j % 128`. -/
def rowOf (j : Fin 262144) : Fin 2048 := ⟨j.val / 128, by have := j.isLt; omega⟩
def grpOf (j : Fin 262144) : Fin 128 := ⟨j.val % 128, by omega⟩

/-- The group values laid out as `[8, 262144]`. -/
def flatArr (x1 : SX1.Idx → EReal) (x2 : SX2.Idx → EReal) : SFlat.Idx → EReal :=
  fun j => gmin x1 x2 (j 0) (rowOf (j 1)) (grpOf (j 1))

/-- The two layouts index the same set: `(b, n, g) ↦ (b, 128 n + g)`. -/
def flatten : SOut.Idx ≃ SFlat.Idx where
  toFun i := ix2 (i 0) (⟨128 * (i 1).val + (i 2).val, by have h1 : (i 1).val < 2048 := (i 1).isLt; have h2 : (i 2).val < 128 := (i 2).isLt; show _ < 262144; omega⟩ : Fin 262144)
  invFun j := ix3 (j 0) (rowOf (j 1)) (grpOf (j 1))
  left_inv i := by
    funext a
    match a with
    | ⟨0, _⟩ => rfl
    | ⟨1, _⟩ => exact Fin.ext (by have h2 : (i 2).val < 128 := (i 2).isLt; show (128 * (i 1).val + (i 2).val) / 128 = (i 1).val; omega)
    | ⟨2, _⟩ => exact Fin.ext (by have h2 : (i 2).val < 128 := (i 2).isLt; show (128 * (i 1).val + (i 2).val) % 128 = (i 2).val; omega)
  right_inv j := by
    funext a
    match a with
    | ⟨0, _⟩ => rfl
    | ⟨1, _⟩ => exact Fin.ext (by show 128 * ((j 1).val / 128) + (j 1).val % 128 = (j 1).val; omega)

/-- The total of the group values is the same in both layouts. -/
theorem sum_outArr_eq_sum_flatArr (x1 : SX1.Idx → EReal) (x2 : SX2.Idx → EReal) :
    ∑ i : SOut.Idx, outArr x1 x2 i = ∑ j : SFlat.Idx, flatArr x1 x2 j := by
  refine Fintype.sum_equiv flatten _ _ fun i => ?_
  show gmin x1 x2 (i 0) (i 1) (i 2) = gmin x1 x2 (i 0) (rowOf (flatten i 1)) (grpOf (flatten i 1))
  have h1 : rowOf (flatten i 1) = i 1 := congrFun (flatten.left_inv i) 1
  have h2 : grpOf (flatten i 1) = i 2 := congrFun (flatten.left_inv i) 2
  rw [h1, h2]

end Cert.Spec

end
-- ==== Proof.KernelMean.lean ====
/-
  The result as the operations after the kernel compute it from the array of group values: the total of the
  `8 · 2048 · 128` group values, started from `0`, divided by their count `2^21` (the float word `0x4A000000`).
-/
import proofs.«131465_j15195594293783_1_alg».proof.Proof.Gen.KernelIdeal
import proofs.«131465_j15195594293783_1_alg».proof.Proof.Spec

noncomputable section

namespace Cert.KernelArray

open Idealize.ShloMosaic Cert.KernelIdeal Cert.KernelIdeal.Facts₀

/-- The mean of the group values: their total over the initial value `0`, divided by their count. -/
def meanOf (x1 : Cert.Spec.SX1.Idx → EReal) (x2 : Cert.Spec.SX2.Idx → EReal) : S_.Idx → EReal :=
  Host.divf (Host.reduceAdd (F := Ideal) (φ := .f32) (Cert.Spec.outArr x1 x2 : FVec Ideal S8x2048x128 .f32) (constant (F := Ideal) S_ .f32 0x00000000#32) reducesTo_S8x2048x128_S_d0_1_2 h_S_)
    (constant (F := Ideal) S_ .f32 0x4A000000#32)

end Cert.KernelArray

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelPhase.lean ====
/-
  What the kernel body leaves in its output block, entry by entry.

  The body computes, for each of the nine members `k` of a candidate group, a [256, 128] tile of squared
  distances `(|q_p|² + s_k[g]) - 2 · ⟨q_p, c_k[g]⟩` (the query row's squared norm broadcast along the
  columns, the member's precomputed squared norms broadcast along the rows, the cross term a matrix product
  against the member's transposed rows) and folds the nine tiles with `min`, from the left. Read at row `p`
  and column `g` every layout operation names one entry of its operand, the lane reduction and the matrix product
  are finite sums over the 1024 features, and the result is the left-bracketed minimum of the nine distances.
-/
import proofs.«131465_j15195594293783_1_alg».proof.Proof.Gen.KernelIdeal.Frame
import proofs.«131465_j15195594293783_1_alg».proof.Proof.Spec
import proofs.«131465_j15195594293783_1_alg».proof.Proof.LibDot2
import Idealize.ShloMosaic.Lib.Pipeline.Value
import Idealize.ShloMosaic.Lib.ValueLayout

noncomputable section
namespace Cert.KernelPhase
open Idealize.ShloMosaic Idealize.ShloMosaic.ValueIdx Cert.KernelIdeal
open Cert.KernelIdeal.Facts₀

/-! ## One member's tile of distances, at any float instance -/

section Generic
variable {F : FTy → Type} [FloatOps F]

/-- The tile of squared distances of one member: `v2` the query rows (rounded), `v5` their squared norms as a column,
    `xk` the member's candidate rows, `sk` the member's squared norms. -/
def phaseDist (v2 : FVec F S256x1024 .bf16) (v5 : FVec F S256x1 .f32) (xk : Vec F S1x1x128x1024 .f32)
    (sk : Vec F S1x1x128 .f32) : FVec F S256x128 .f32 :=
  subf
    (addf (broadcastTo S256x128 v5 broadcasts_S256x1_S256x128)
      (broadcastTo S256x128 (shapeCast S1x128 (shapeCast S128 sk shapeCasts_S1x1x128_S128) shapeCasts_S128_S1x128)
        broadcasts_S1x128_S256x128))
    (mulf (broadcast S256x128 (Scalar.ofBits .f32 0x40000000#32 : F .f32))
      (matmul dot_S256x1024_S1024x128_S256x128_1_0_0_1_n_n none v2
        (transpose S1024x128 [1, 0]
          (truncf .bf16 (shapeCast S128x1024 xk shapeCasts_S1x1x128x1024_S128x1024) bitsLt_bf16_f32)
          transposes_S128x1024_p1_0_S1024x128)
        (constant S256x128 .f32 0x00000000#32)))

/-- The body's stored value is the nine tiles folded with `min` from the left, with a unit axis put in front. -/
theorem payload_eq (v0 : Vec F S1x256x1024 .f32)
    (a0 a1 a2 a3 a4 a5 a6 a7 a8 : Vec F S1x1x128x1024 .f32) (s0 s1 s2 s3 s4 s5 s6 s7 s8 : Vec F S1x1x128 .f32) :
    Gen.k0_pay1 (Gen.k0_pay3 v0) (Gen.k0_pay4 v0)
        (Gen.k0_pay8 (Gen.k0_pay3 v0) (Gen.k0_pay4 v0)
          (Gen.k0_pay6 (Gen.k0_pay3 v0) (Gen.k0_pay4 v0) (Gen.k0_pay5 v0 a0 s0 a1 s1) a2 s2 a3 s3)
          (Gen.k0_pay7 (Gen.k0_pay3 v0) a4) s4 a5 s5 a6 s6)
        a7 s7 a8 s8
      = shapeCast S1x256x128
          (minimumf (minimumf (minimumf (minimumf (minimumf (minimumf (minimumf (minimumf
            (phaseDist (Gen.k0_pay3 v0) (Gen.k0_pay4 v0) a0 s0)
            (phaseDist (Gen.k0_pay3 v0) (Gen.k0_pay4 v0) a1 s1))
            (phaseDist (Gen.k0_pay3 v0) (Gen.k0_pay4 v0) a2 s2))
            (phaseDist (Gen.k0_pay3 v0) (Gen.k0_pay4 v0) a3 s3))
            (phaseDist (Gen.k0_pay3 v0) (Gen.k0_pay4 v0) a4 s4))
            (phaseDist (Gen.k0_pay3 v0) (Gen.k0_pay4 v0) a5 s5))
            (phaseDist (Gen.k0_pay3 v0) (Gen.k0_pay4 v0) a6 s6))
            (phaseDist (Gen.k0_pay3 v0) (Gen.k0_pay4 v0) a7 s7))
            (phaseDist (Gen.k0_pay3 v0) (Gen.k0_pay4 v0) a8 s8))
          shapeCasts_S256x128_S1x256x128 := rfl

end Generic

/-! ## The matrix product's dimension record, coordinate by coordinate -/

theorem lhs_dot_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_dot_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhs_dot_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhs_dot_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-! ## The layout operations of one tile, read at an entry -/

section Layout
variable {α : Type}

/-- A column broadcast along the rows' entries: entry `(p, g)` is the column's entry `p`. -/
theorem bcast_col_apply (v : S256x1.Idx → α) (h : S256x1.Broadcasts S256x128) (p : Fin 256) (g : Fin 128) :
    broadcastTo S256x128 v h (ix2 p g) = v (ix2 p (0 : Fin 1)) :=
  broadcastTo_apply v h (ix2 p g) (ix2 p (0 : Fin 1)) fun a => match a with
    | ⟨0, _⟩ => by show p.val = if (256 : Nat) = 1 then 0 else p.val; rw [if_neg (by decide)]
    | ⟨1, _⟩ => by show (0 : Nat) = if (1 : Nat) = 1 then 0 else g.val; rw [if_pos rfl]

/-- A `[1, 1, 128]` array viewed as `[128]` and then as one row `[1, 128]`: entry `(0, g)` is the array's entry `(0, 0, g)`. -/
theorem row_apply (sk : S1x1x128.Idx → α) (h1 : S1x1x128.ShapeCasts S128) (h2 : S128.ShapeCasts S1x128) (g : Fin 128) :
    shapeCast S1x128 (shapeCast S128 sk h1) h2 (ix2 (0 : Fin 1) g) = sk (ix3 (0 : Fin 1) (0 : Fin 1) g) :=
  (shapeCast_a_1a_apply _ h2 (0 : Fin 1) g).trans
    (shapeCast_apply sk h1 (ix1 g) (ix3 (0 : Fin 1) (0 : Fin 1) g) (by
      rw [Shape.rowMajor_val_three, Shape.rowMajor_val_one]
      show (0 * 1 + 0) * 128 + g.val = g.val
      omega))

/-- A `[1, 1, 128, 1024]` array viewed as `[128, 1024]`: entry `(g, d)` is the array's entry `(0, 0, g, d)`. -/
theorem rows_apply (xk : S1x1x128x1024.Idx → α) (h : S1x1x128x1024.ShapeCasts S128x1024) (g : Fin 128) (d : Fin 1024) :
    shapeCast S128x1024 xk h (ix2 g d) = xk (ix4 (0 : Fin 1) (0 : Fin 1) g d) :=
  shapeCast_apply xk h (ix2 g d) (ix4 (0 : Fin 1) (0 : Fin 1) g d) (by
    rw [Shape.rowMajor_val_four, Shape.rowMajor_val_two]
    show ((0 * 1 + 0) * 128 + g.val) * 1024 + d.val = g.val * 1024 + d.val
    omega)

/-- A `[256]` array viewed as a column `[256, 1]`: entry `(p, 0)` is the array's entry `p`. -/
theorem col_apply (v : S256.Idx → α) (h : S256.ShapeCasts S256x1) (p : Fin 256) :
    shapeCast S256x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Layout

/-! ## One tile at the ideal values -/

/-- The query block with its unit axis dropped: entry `(p, d)` is the block's entry `(0, p, d)`. -/
theorem pay2_apply (v0 : Vec Ideal S1x256x1024 .f32) (p : Fin 256) (d : Fin 1024) :
    Gen.k0_pay2 v0 (ix2 p d) = v0 (ix3 (0 : Fin 1) p d) := by
  unfold Gen.k0_pay2
  exact shapeCast_1ab_ab_apply v0 _ p d

/-- Rounding is the identity at the ideal values. -/
theorem pay3_apply (v0 : Vec Ideal S1x256x1024 .f32) (p : Fin 256) (d : Fin 1024) :
    Gen.k0_pay3 v0 (ix2 p d) = v0 (ix3 (0 : Fin 1) p d) := by
  unfold Gen.k0_pay3
  show Gen.k0_pay2 v0 (ix2 p d) = _
  exact pay2_apply v0 p d

/-- The query rows' squared norms: entry `(p, 0)` is the sum over the features of the squares of row `p`. -/
theorem pay4_apply (v0 : Vec Ideal S1x256x1024 .f32) (p : Fin 256) :
    Gen.k0_pay4 v0 (ix2 p (0 : Fin 1)) = ∑ d : Fin 1024, v0 (ix3 (0 : Fin 1) p d) * v0 (ix3 (0 : Fin 1) p d) := by
  unfold Gen.k0_pay4
  refine (col_apply _ _ p).trans ?_
  refine (Ideal.multiReduction_add_single (mulf (Gen.k0_pay2 v0) (Gen.k0_pay2 v0)) 0x00000000#32 reduces_S256x1024_S256 (.inl rfl) rfl (ix1 p)).trans ?_
  refine Finset.sum_congr rfl fun (d : Fin 1024) _ => ?_
  have hl : (reduces_S256x1024_S256 : S256x1024.Reduces [1] S256).lift (ix1 p) d = ix2 p d :=
    funext fun a => Fin.ext (by match a with | ⟨0, _⟩ => rfl | ⟨1, _⟩ => rfl)
  rw [hl, mulf_apply, pay2_apply]

/-- One member's tile at entry `(p, g)`: the row's squared norm plus the member's, less twice the inner product. -/
theorem phaseDist_apply (v2 : FVec Ideal S256x1024 .bf16) (v5 : FVec Ideal S256x1 .f32)
    (xk : Vec Ideal S1x1x128x1024 .f32) (sk : Vec Ideal S1x1x128 .f32) (p : Fin 256) (g : Fin 128) :
    phaseDist v2 v5 xk sk (ix2 p g)
      = (v5 (ix2 p (0 : Fin 1)) + sk (ix3 (0 : Fin 1) (0 : Fin 1) g))
          - Cert.Spec.two * ∑ d : Fin 1024, v2 (ix2 p d) * xk (ix4 (0 : Fin 1) (0 : Fin 1) g d) := by
  unfold phaseDist
  rw [subf_apply, addf_apply, mulf_apply, broadcast_apply, bcast_col_apply, broadcastTo_1b_ab_apply, row_apply,
    Cert.Lib.Dot2.matmul_zero_ix2 dot_S256x1024_S1024x128_S256x128_1_0_0_1_n_n none rfl rfl lhs_dot_0 lhs_dot_1 rhs_dot_0 rhs_dot_1]
  refine congrArg (fun t => _ - _ * t) (Finset.sum_congr rfl fun d _ => ?_)
  rw [transpose_ix2_apply, truncf_apply, rows_apply]

/-! ## The loads of one member's rows and norms -/

/-- Member `k`'s candidate rows: the load at offsets `(0, k, 0, 0)` reads, at `(0, 0, g, d)`, the block's entry `(0, k, g, d)`. -/
theorem ld_rows_apply (x1 : Vec Ideal S1x9x128x1024 .f32) (k : Fin 9)
    (inb : ∀ a, (![0, k.val, 0, 0] : Fin 4 → Nat) a + S1x1x128x1024.size a ≤ S1x9x128x1024.size a) (g : Fin 128) (d : Fin 1024) :
    View.ld x1 (Rect.unit (s := S1x9x128x1024) ![0, k.val, 0, 0] S1x1x128x1024.size inb) (ix4 (0 : Fin 1) (0 : Fin 1) g d)
      = x1 (ix4 (0 : Fin 1) k g d) := by
  show x1 _ = x1 _
  refine congrArg x1 (funext fun a => Fin.ext ?_)
  match a with
  | ⟨0, _⟩ => rfl
  | ⟨1, _⟩ => show k.val + 1 * 0 = k.val; omega
  | ⟨2, _⟩ => show 0 + 1 * g.val = g.val; omega
  | ⟨3, _⟩ => show 0 + 1 * d.val = d.val; omega

/-- Member `k`'s squared norms: the load at offsets `(0, k, 0)` reads, at `(0, 0, g)`, the block's entry `(0, k, g)`. -/
theorem ld_norms_apply (x2 : Vec Ideal S1x9x128 .f32) (k : Fin 9)
    (inb : ∀ a, (![0, k.val, 0] : Fin 3 → Nat) a + S1x1x128.size a ≤ S1x9x128.size a) (g : Fin 128) :
    View.ld x2 (Rect.unit (s := S1x9x128) ![0, k.val, 0] S1x1x128.size inb) (ix3 (0 : Fin 1) (0 : Fin 1) g)
      = x2 (ix3 (0 : Fin 1) k g) := by
  show x2 _ = x2 _
  refine congrArg x2 (funext fun a => Fin.ext ?_)
  match a with
  | ⟨0, _⟩ => rfl
  | ⟨1, _⟩ => show k.val + 1 * 0 = k.val; omega
  | ⟨2, _⟩ => show 0 + 1 * g.val = g.val; omega

/-- The squared distance of row `p` of the query block to member `k` of group `g`. -/
def memberDist (x0 : Vec Ideal S1x256x1024 .f32) (x1 : Vec Ideal S1x9x128x1024 .f32) (x2 : Vec Ideal S1x9x128 .f32)
    (p : Fin 256) (g : Fin 128) (k : Fin 9) : EReal :=
  ((∑ d : Fin 1024, x0 (ix3 (0 : Fin 1) p d) * x0 (ix3 (0 : Fin 1) p d)) + x2 (ix3 (0 : Fin 1) k g))
    - Cert.Spec.two * ∑ d : Fin 1024, x0 (ix3 (0 : Fin 1) p d) * x1 (ix4 (0 : Fin 1) k g d)

/-- Member `k`'s tile, over the loads of the three blocks, at entry `(p, g)` is that distance. -/
theorem phase_at (x0 : Vec Ideal S1x256x1024 .f32) (x1 : Vec Ideal S1x9x128x1024 .f32) (x2 : Vec Ideal S1x9x128 .f32)
    (k : Fin 9)
    (inb1 : ∀ a, (![0, k.val, 0, 0] : Fin 4 → Nat) a + S1x1x128x1024.size a ≤ S1x9x128x1024.size a)
    (inb2 : ∀ a, (![0, k.val, 0] : Fin 3 → Nat) a + S1x1x128.size a ≤ S1x9x128.size a)
    (p : Fin 256) (g : Fin 128) :
    phaseDist (Gen.k0_pay3 x0) (Gen.k0_pay4 x0)
        (View.ld x1 (Rect.unit (s := S1x9x128x1024) ![0, k.val, 0, 0] S1x1x128x1024.size inb1))
        (View.ld x2 (Rect.unit (s := S1x9x128) ![0, k.val, 0] S1x1x128.size inb2)) (ix2 p g)
      = memberDist x0 x1 x2 p g k := by
  refine (phaseDist_apply _ _ _ _ p g).trans ?_
  unfold memberDist
  rw [pay4_apply, ld_norms_apply x2 k inb2 g]
  refine congrArg (fun t => _ - _ * t) (Finset.sum_congr rfl fun d _ => ?_)
  rw [pay3_apply, ld_rows_apply x1 k inb1 g d]

/-! ## The output block -/

theorem out_block_apply (x0 : Vec Ideal S1x256x1024 .f32) (x1 : Vec Ideal S1x9x128x1024 .f32) (x2 : Vec Ideal S1x9x128 .f32)
    (p : Fin 256) (g : Fin 128) :
    Gen.out0_3 (F := Ideal) x0 x1 x2 (ix3 (0 : Fin 1) p g)
      = Cert.Spec.min9 fun k : Fin 9 =>
          ((∑ d : Fin 1024, x0 (ix3 (0 : Fin 1) p d) * x0 (ix3 (0 : Fin 1) p d)) + x2 (ix3 (0 : Fin 1) k g))
            - Cert.Spec.two * ∑ d : Fin 1024, x0 (ix3 (0 : Fin 1) p d) * x1 (ix4 (0 : Fin 1) k g d) := by
  have hz : (![0, 0, 0] : Fin 3 → Nat) = fun _ => 0 := by funext a; fin_cases a <;> rfl
  have h0 : phaseDist (Gen.k0_pay3 x0) (Gen.k0_pay4 x0) (View.ld x1 Gen.r0_1) (View.ld x2 Gen.r0_2) (ix2 p g)
      = memberDist x0 x1 x2 p g 0 := phase_at x0 x1 x2 0 _ _ p g
  have h1 : phaseDist (Gen.k0_pay3 x0) (Gen.k0_pay4 x0) (View.ld x1 Gen.r0_3) (View.ld x2 Gen.r0_4) (ix2 p g)
      = memberDist x0 x1 x2 p g 1 := phase_at x0 x1 x2 1 _ _ p g
  have h2 : phaseDist (Gen.k0_pay3 x0) (Gen.k0_pay4 x0) (View.ld x1 Gen.r0_5) (View.ld x2 Gen.r0_6) (ix2 p g)
      = memberDist x0 x1 x2 p g 2 := phase_at x0 x1 x2 2 _ _ p g
  have h3 : phaseDist (Gen.k0_pay3 x0) (Gen.k0_pay4 x0) (View.ld x1 Gen.r0_7) (View.ld x2 Gen.r0_8) (ix2 p g)
      = memberDist x0 x1 x2 p g 3 := phase_at x0 x1 x2 3 _ _ p g
  have h4 : phaseDist (Gen.k0_pay3 x0) (Gen.k0_pay4 x0) (View.ld x1 Gen.r0_9) (View.ld x2 Gen.r0_10) (ix2 p g)
      = memberDist x0 x1 x2 p g 4 := phase_at x0 x1 x2 4 _ _ p g
  have h5 : phaseDist (Gen.k0_pay3 x0) (Gen.k0_pay4 x0) (View.ld x1 Gen.r0_11) (View.ld x2 Gen.r0_12) (ix2 p g)
      = memberDist x0 x1 x2 p g 5 := phase_at x0 x1 x2 5 _ _ p g
  have h6 : phaseDist (Gen.k0_pay3 x0) (Gen.k0_pay4 x0) (View.ld x1 Gen.r0_13) (View.ld x2 Gen.r0_14) (ix2 p g)
      = memberDist x0 x1 x2 p g 6 := phase_at x0 x1 x2 6 _ _ p g
  have h7 : phaseDist (Gen.k0_pay3 x0) (Gen.k0_pay4 x0) (View.ld x1 Gen.r0_15) (View.ld x2 Gen.r0_16) (ix2 p g)
      = memberDist x0 x1 x2 p g 7 := phase_at x0 x1 x2 7 _ _ p g
  have h8 : phaseDist (Gen.k0_pay3 x0) (Gen.k0_pay4 x0) (View.ld x1 Gen.r0_17) (View.ld x2 Gen.r0_18) (ix2 p g)
      = memberDist x0 x1 x2 p g 8 := phase_at x0 x1 x2 8 _ _ p g
  unfold Gen.out0_3
  rw [View.canon_unit_zero hz, View.ld_unit_zero (S := S1x256x1024) hz, payload_eq, shapeCast_ab_1ab_apply]
  simp only [minimumf_apply]
  rw [h0, h1, h2, h3, h4, h5, h6, h7, h8]
  rfl

end Cert.KernelPhase
end
-- ==== Proof.HostPrefix.lean ====
/-
  What the two arrays hold that the operations before the kernel call write from the candidate array `x2`.

  The first is `x2` regrouped as `[8, 128, 9, 1024]` with the two middle axes exchanged, so its element at
  `(b, k, g, d)` is `x2[b, 9 g + k, d]`. The second is the row sums of `x2 * x2` over the features, taken from the
  constant zero, regrouped as `[8, 128, 9]` with the two last axes exchanged, so its element at `(b, k, g)` is the
  squared norm of candidate `9 g + k` of batch `b`. A regrouping keeps the row-major position and an exchange of
  axes permutes the coordinates; the rest is `0 + s = s`.
-/
import proofs.«131465_j15195594293783_1_alg».proof.Proof.Gen.KernelIdeal.Frame
import proofs.«131465_j15195594293783_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section
namespace Cert.HostPrefix
open Idealize.ShloMosaic Idealize.ShloMosaic.TcCoe Idealize.ShloMosaic.ValueIdx Idealize.SL.Sem Cert.KernelIdeal
open Idealize.ShloMosaic.StableHlo

variable (m : (ℓ : Loc nD τ sig) → Buf (Elt Ideal) ℓ)

/-- The array the first two host operations write: the candidates regrouped as `[8, 128, 9, 1024]` and the two
    middle axes exchanged. -/
theorem V_main_v1_eq (c : Dev nD) :
    (Gen.V m c main_v1 : S8x9x128x1024.Idx → EReal)
      = transpose S8x9x128x1024 [0, 2, 1, 3]
          (shapeCast S8x128x9x1024 (m ((c : Thread nD τ).loc main_arg1) : S8x1152x1024.Idx → EReal) Gen.shapeCasts_S8x1152x1024_S8x128x9x1024)
          Gen.transposes_S8x128x9x1024_S8x9x128x1024_0_2_1_3 := by
  show StableHlo.after Gen.hostOps0 (fun b => m (c, b)) (Proc.devRef .tc main_v1) = _
  after_results
  rfl

/-- The array the last five host operations write: the candidates' squared norms (a sum over the features from
    the constant zero), regrouped as `[8, 128, 9]` and the two last axes exchanged. -/
theorem V_main_v5_eq (c : Dev nD) :
    (Gen.V m c main_v5 : S8x9x128.Idx → EReal)
      = transpose S8x9x128 [0, 2, 1]
          (shapeCast S8x128x9
            (Host.reduceAdd (F := Ideal)
              (mulf (F := Ideal) (m ((c : Thread nD τ).loc main_arg1) : S8x1152x1024.Idx → EReal) (m ((c : Thread nD τ).loc main_arg1)))
              (constant (F := Ideal) S_ .f32 0x00000000#32) Gen.reducesTo_S8x1152x1024_S8x1152_d2 Gen.h_S_)
            Gen.shapeCasts_S8x1152_S8x128x9)
          Gen.transposes_S8x128x9_S8x9x128_0_2_1 := by
  show StableHlo.after Gen.hostOps0 (fun b => m (c, b)) (Proc.devRef .tc main_v5) = _
  after_results
  rfl

/-- Regrouping then exchanging the middle axes, read at `(b, k, g, d)`: candidate `9 g + k` of batch `b` at feature `d`. -/
theorem regroup4_apply (x : S8x1152x1024.Idx → EReal) (b : Fin 8) (k : Fin 9) (g : Fin 128) (d : Fin 1024) :
    transpose S8x9x128x1024 [0, 2, 1, 3]
        (shapeCast S8x128x9x1024 x Gen.shapeCasts_S8x1152x1024_S8x128x9x1024)
        Gen.transposes_S8x128x9x1024_S8x9x128x1024_0_2_1_3 (ix4 b k g d)
      = x (ix3 b (Cert.Spec.cand g k) d) := by
  rw [transpose_apply _ _ Gen.transposes_S8x128x9x1024_S8x9x128x1024_0_2_1_3 (ix4 b k g d) (ix4 b g k d)
    (fun a => match a with | ⟨0, _⟩ => rfl | ⟨1, _⟩ => rfl | ⟨2, _⟩ => rfl | ⟨3, _⟩ => rfl)]
  exact shapeCast_apply x Gen.shapeCasts_S8x1152x1024_S8x128x9x1024 (ix4 b g k d) (ix3 b (Cert.Spec.cand g k) d)
    (by rewrite [Shape.rowMajor_val_three, Shape.rowMajor_val_four]
        have hb := b.isLt; have hk := k.isLt; have hg := g.isLt; have hd := d.isLt
        show (b.val * 1152 + (9 * g.val + k.val)) * 1024 + d.val = ((b.val * 128 + g.val) * 9 + k.val) * 1024 + d.val
        omega)

theorem V_main_v1_apply (c : Dev nD) (b : Fin 8) (k : Fin 9) (g : Fin 128) (d : Fin 1024) :
    (Gen.V m c main_v1 : S8x9x128x1024.Idx → EReal) (ix4 b k g d)
      = (m ((c : Thread nD τ).loc main_arg1) : S8x1152x1024.Idx → EReal) (ix3 b (Cert.Spec.cand g k) d) := by
  rw [V_main_v1_eq m c]
  exact regroup4_apply _ b k g d

/-- The squared norms regrouped and the two last axes exchanged, read at `(b, k, g)`: the sum over the features of
    the squares of candidate `9 g + k` of batch `b`; the sum starts from the constant zero, which adds nothing. -/
theorem regroup3_sq_apply (x : S8x1152x1024.Idx → EReal) (b : Fin 8) (k : Fin 9) (g : Fin 128) :
    transpose S8x9x128 [0, 2, 1]
        (shapeCast S8x128x9
          (Host.reduceAdd (F := Ideal) (mulf (F := Ideal) x x) (constant (F := Ideal) S_ .f32 0x00000000#32)
            Gen.reducesTo_S8x1152x1024_S8x1152_d2 Gen.h_S_)
          Gen.shapeCasts_S8x1152_S8x128x9)
        Gen.transposes_S8x128x9_S8x9x128_0_2_1 (ix3 b k g)
      = Cert.Spec.sq2 x b (Cert.Spec.cand g k) := by
  rw [transpose_apply _ _ Gen.transposes_S8x128x9_S8x9x128_0_2_1 (ix3 b k g) (ix3 b g k)
    (fun a => match a with | ⟨0, _⟩ => rfl | ⟨1, _⟩ => rfl | ⟨2, _⟩ => rfl)]
  rw [shapeCast_apply _ Gen.shapeCasts_S8x1152_S8x128x9 (ix3 b g k) (ix2 b (Cert.Spec.cand g k))
    (by rewrite [Shape.rowMajor_val_two, Shape.rowMajor_val_three]
        show b.val * 1152 + (9 * g.val + k.val) = (b.val * 128 + g.val) * 9 + k.val
        omega)]
  simp only [Host.reduceAdd, Ideal.hostReduceAdd_def]
  rw [Ideal.hostReduceAdd_single Gen.reducesTo_S8x1152x1024_S8x1152_d2 (by decide)]
  rw [constant_apply, Ideal.ofBits_zero_f32, zero_add]
  unfold Cert.Spec.sq2
  refine Finset.sum_congr rfl fun d _ => ?_
  rw [mulf_apply]
  exact congrArg (fun i => x i * x i)
    (funext fun a => Fin.ext (by match a with | ⟨0, _⟩ => rfl | ⟨1, _⟩ => rfl | ⟨2, _⟩ => rfl))

theorem V_main_v5_apply (c : Dev nD) (b : Fin 8) (k : Fin 9) (g : Fin 128) :
    (Gen.V m c main_v5 : S8x9x128.Idx → EReal) (ix3 b k g)
      = Cert.Spec.sq2 (m ((c : Thread nD τ).loc main_arg1)) b (Cert.Spec.cand g k) := by
  rw [V_main_v5_eq m c]
  exact regroup3_sq_apply _ b k g

end Cert.HostPrefix
end
-- ==== Proof.KernelArray.lean ====
/-
  The kernel's side of the value claim.

  The kernel runs on an 8 × 8 grid: point `t` takes batch `t / 8` and the 256 query rows of tile `t % 8`, together
  with the batch's whole candidate array regrouped so that member `k` of every group lies in one plane, and the
  candidates' squared norms regrouped the same way. For each of the nine members it forms
  `|q|² + |c|² - 2 ⟨q, c⟩` against the 128 candidates of that plane and keeps the running minimum, so entry `(p, g)`
  of the block it writes back is the least squared distance between query row `256 (t % 8) + p` and the nine
  candidates `9 g + k`. The 64 blocks tile the `[8, 2048, 128]` result array, which therefore ends holding every group's
  value; the operations after the kernel sum that array and divide by the number of its entries.
-/
import proofs.«131465_j15195594293783_1_alg».proof.Proof.Gen.KernelIdeal.Frame
import proofs.«131465_j15195594293783_1_alg».proof.Proof.Spec
import proofs.«131465_j15195594293783_1_alg».proof.Proof.KernelMean
import proofs.«131465_j15195594293783_1_alg».proof.Proof.KernelPhase
import proofs.«131465_j15195594293783_1_alg».proof.Proof.HostPrefix
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelArray

open Cert.KernelIdeal Cert.KernelIdeal.Gen

variable (m : (ℓ : Loc nD τ sig) → Buf (Elt Ideal) ℓ) (ρ : Dev nD → PrngReg)

/-- Over the 64 grid points: point `t` works on batch `t / 8` and on the query rows of tile `t % 8`; the two candidate
    windows take the whole batch. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 4) = t.val / 8 ∧ win0_1.index t (1 : Fin 4) = 0 ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

theorem lt64 (t : Fin cfg0.N) : t.val < 64 := Nat.lt_of_lt_of_eq t.isLt N_0

/-- The batch of grid point `t`. -/
def batchOf (t : Fin cfg0.N) : Fin 8 := ⟨t.val / 8, by have := lt64 t; omega⟩

/-- Row `p` of grid point `t`'s tile of 256 query rows. -/
def rowAt (t : Fin cfg0.N) (p : Fin 256) : Fin 2048 := ⟨256 * (t.val % 8) + p.val, by have := p.isLt; omega⟩

/-- The query block of point `t`, at row `p` and feature `d`. -/
theorem iblk0_apply (c : Dev nD) (t : Fin cfg0.N) (p : Fin 256) (d : Fin 1024) :
    (iblk m c 0 t : Vec Ideal S1x256x1024 .f32) (ix3 (0 : Fin 1) p d)
      = (m ((c : Thread nD τ).loc main_arg0) : S8x2048x1024.Idx → EReal) (ix3 (batchOf t) (rowAt t p) d) := by
  obtain ⟨e0, e1, e2, -⟩ := idx_facts t
  unfold iblk
  rw [View.read_apply]
  refine (congrFun (V_main_arg0 m c) _).trans ?_
  refine congrArg (m ((c : Thread nD τ).loc main_arg0) : S8x2048x1024.Idx → EReal) ?_
  funext a; apply Fin.ext
  match a with
  | ⟨0, _⟩ => show win0_0.index t (0 : Fin 3) * 1 + 1 * ((0 : Fin 1) : ℕ) = t.val / 8; omega
  | ⟨1, _⟩ => show win0_0.index t (1 : Fin 3) * 256 + 1 * p.val = 256 * (t.val % 8) + p.val; omega
  | ⟨2, _⟩ => show win0_0.index t (2 : Fin 3) * 1024 + 1 * d.val = d.val; omega

/-- The candidate block of point `t`, at member `k` of group `g` and feature `d`: candidate row `9 g + k` of the batch. -/
theorem iblk1_apply (c : Dev nD) (t : Fin cfg0.N) (k : Fin 9) (g : Fin 128) (d : Fin 1024) :
    (iblk m c 1 t : Vec Ideal S1x9x128x1024 .f32) (ix4 (0 : Fin 1) k g d)
      = (m ((c : Thread nD τ).loc main_arg1) : S8x1152x1024.Idx → EReal) (ix3 (batchOf t) (Cert.Spec.cand g k) d) := by
  obtain ⟨-, -, -, e0, e1, e2, e3, -⟩ := idx_facts t
  unfold iblk
  rw [View.read_apply]
  refine Eq.trans ?_ (Cert.HostPrefix.V_main_v1_apply m c (batchOf t) k g d)
  refine congrArg (V m c main_v1 : S8x9x128x1024.Idx → EReal) ?_
  funext a; apply Fin.ext
  match a with
  | ⟨0, _⟩ => show win0_1.index t (0 : Fin 4) * 1 + 1 * ((0 : Fin 1) : ℕ) = t.val / 8; omega
  | ⟨1, _⟩ => show win0_1.index t (1 : Fin 4) * 9 + 1 * k.val = k.val; omega
  | ⟨2, _⟩ => show win0_1.index t (2 : Fin 4) * 128 + 1 * g.val = g.val; omega
  | ⟨3, _⟩ => show win0_1.index t (3 : Fin 4) * 1024 + 1 * d.val = d.val; omega

/-- The block of candidate norms of point `t`, at member `k` of group `g`: the squared norm of candidate row `9 g + k`. -/
theorem iblk2_apply (c : Dev nD) (t : Fin cfg0.N) (k : Fin 9) (g : Fin 128) :
    (iblk m c 2 t : Vec Ideal S1x9x128 .f32) (ix3 (0 : Fin 1) k g)
      = Cert.Spec.sq2 (m ((c : Thread nD τ).loc main_arg1)) (batchOf t) (Cert.Spec.cand g k) := by
  obtain ⟨-, -, -, -, -, -, -, e0, e1, e2, -⟩ := idx_facts t
  unfold iblk
  rw [View.read_apply]
  refine Eq.trans ?_ (Cert.HostPrefix.V_main_v5_apply m c (batchOf t) k g)
  refine congrArg (V m c main_v5 : S8x9x128.Idx → EReal) ?_
  funext a; apply Fin.ext
  match a with
  | ⟨0, _⟩ => show win0_2.index t (0 : Fin 3) * 1 + 1 * ((0 : Fin 1) : ℕ) = t.val / 8; omega
  | ⟨1, _⟩ => show win0_2.index t (1 : Fin 3) * 9 + 1 * k.val = k.val; omega
  | ⟨2, _⟩ => show win0_2.index t (2 : Fin 3) * 128 + 1 * g.val = g.val; omega

/-- Where entry `(p, g)` of point `t`'s output block lies in the result array. -/
theorem emb3_apply (t : Fin cfg0.N) (p : Fin 256) (g : Fin 128) :
    (((cfg0.win 3).blk t).view.emb (ix3 (0 : Fin 1) p g) : S8x2048x128.Idx) = ix3 (batchOf t) (rowAt t p) g := by
  obtain ⟨-, -, -, -, -, -, -, -, -, -, e0, e1, e2⟩ := idx_facts t
  funext a; apply Fin.ext
  match a with
  | ⟨0, _⟩ => show win0_3.index t (0 : Fin 3) * 1 + 1 * ((0 : Fin 1) : ℕ) = t.val / 8; omega
  | ⟨1, _⟩ => show win0_3.index t (1 : Fin 3) * 256 + 1 * p.val = 256 * (t.val % 8) + p.val; omega
  | ⟨2, _⟩ => show win0_3.index t (2 : Fin 3) * 128 + 1 * g.val = g.val; omega

/-- What point `t` writes back is its block of the array of group values. -/
theorem flushed_eq (c : Dev nD) (t : Fin cfg0.N) :
    (dats m 0 c).flushed 3 t = ((cfg0.win 3).blk t).view.read (Elt Ideal)
      (Cert.Spec.outArr (m ((c : Thread nD τ).loc main_arg0)) (m ((c : Thread nD τ).loc main_arg1))) := by
  show (cfg0.win 3).cut (grid0.coords t) ((dats m 0 c).after 3 t) = _
  rw [after0_3]
  funext j
  obtain ⟨p, g, rfl⟩ : ∃ (p : Fin 256) (g : Fin 128), j = ix3 (0 : Fin 1) p g :=
    ⟨j 1, j 2, funext fun a => by
      match a with
      | ⟨0, _⟩ => exact Fin.ext (by have h : (j 0).val < 1 := (j 0).isLt; show (j 0).val = ((0 : Fin 1) : ℕ); omega)
      | ⟨1, _⟩ => rfl
      | ⟨2, _⟩ => rfl⟩
  rw [View.read_apply]
  show out0_3 (F := Ideal) (iblk m c 0 t) (iblk m c 1 t) (iblk m c 2 t) (ix3 (0 : Fin 1) p g) = _
  refine (Cert.KernelPhase.out_block_apply (iblk m c 0 t) (iblk m c 1 t) (iblk m c 2 t) p g).trans ?_
  refine Eq.trans ?_ (congrArg (Cert.Spec.outArr (m ((c : Thread nD τ).loc main_arg0)) (m ((c : Thread nD τ).loc main_arg1))) (emb3_apply t p g)).symm
  simp only [iblk0_apply m c t, iblk1_apply m c t, iblk2_apply m c t]
  rfl

/-- An index of the result array is in point `t`'s block iff each coordinate is in the block's range on its axis. -/
theorem mem_blk (t : Fin cfg0.N) (i : S8x2048x128.Idx) :
    i ∈ ((cfg0.win 3).blk t).view.set ↔ ∀ a : Fin 3, win0_3.index t a * S1x256x128.size a ≤ (i a).val ∧ (i a).val < win0_3.index t a * S1x256x128.size a + S1x256x128.size a := by
  show i ∈ ((View.whole main_v6).slice (win0_3.rect t)).set ↔ _
  rw [View.set_slice_whole, Rect.mem_set_unit]
  exact Iff.rfl

/-- Every entry of the result array is written by the point of its batch and row tile. -/
theorem cover (i : S8x2048x128.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 128 := (i 2).isLt
  have hN : 8 * (i 0).val + (i 1).val / 256 < cfg0.N := by rw [show cfg0.N = 64 from N_0]; omega
  refine ⟨⟨8 * (i 0).val + (i 1).val / 256, hN⟩, flush0_3 _, ?_⟩
  obtain ⟨-, -, -, -, -, -, -, -, -, -, e0, e1, e2⟩ := idx_facts ⟨8 * (i 0).val + (i 1).val / 256, hN⟩
  rw [mem_blk]
  intro a
  match a with
  | ⟨0, _⟩ => show win0_3.index _ (0 : Fin 3) * 1 ≤ (i 0).val ∧ (i 0).val < win0_3.index _ (0 : Fin 3) * 1 + 1; rw [e0]; show (8 * (i 0).val + (i 1).val / 256) / 8 * 1 ≤ (i 0).val ∧ (i 0).val < (8 * (i 0).val + (i 1).val / 256) / 8 * 1 + 1; omega
  | ⟨1, _⟩ => show win0_3.index _ (1 : Fin 3) * 256 ≤ (i 1).val ∧ (i 1).val < win0_3.index _ (1 : Fin 3) * 256 + 256; rw [e1]; show (8 * (i 0).val + (i 1).val / 256) % 8 * 256 ≤ (i 1).val ∧ (i 1).val < (8 * (i 0).val + (i 1).val / 256) % 8 * 256 + 256; omega
  | ⟨2, _⟩ => show win0_3.index _ (2 : Fin 3) * 128 ≤ (i 2).val ∧ (i 2).val < win0_3.index _ (2 : Fin 3) * 128 + 128; rw [e2]; omega

/-- The result array after the kernel's run holds every group's value. -/
theorem final (c : Dev nD) : (dats m 0 c).arrAt 3 cfg0.N
    = Cert.Spec.outArr (m ((c : Thread nD τ).loc main_arg0)) (m ((c : Thread nD τ).loc main_arg1)) :=
  (dats m 0 c).arrAt_eq_of_cover 3 _ (fun t _ => flushed_eq m c t) cover

/-- After the kernel, the host sums the result array from `0` and divides by the count: the mean of the group values. -/
theorem tail_eq (c : Dev nD) :
    Pipeline.afterTail₀ cfgs (dats m) 0 (V0 m) [hostOps1] c main_v8
      = meanOf (m ((c : Thread nD τ).loc main_arg0)) (m ((c : Thread nD τ).loc main_arg1)) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6)
      = Cert.Spec.outArr (m ((c : Thread nD τ).loc main_arg0)) (m ((c : Thread nD τ).loc main_arg1)) :=
    (Pipeline.withArrays_arr spec0 launch0.win.arr_inj c _ _ 3).trans (final m c)
  rw [e]
  rfl

/-- The kernel's run, read: the result is the mean of the group values, and both arguments end as they were. -/
theorem run : θ_run defs (onTc (τ := τ) (main (F := Ideal))) ⟨m, fun _ => 0, ρ⟩ fun r => ∀ c : Dev nD,
      r.2.mem ((c.tc : Thread nD τ).loc main_v8) = meanOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelArray

end
-- ==== Proof.RefGroupMin.lean ====
/-
  The one stage of the reference that folds over an axis: the minimum over the last axis (nine entries) of the
  distance array reshaped from `[8, 2048, 1152]` to `[8, 262144, 9]`, started from `+∞`. Flat position
  `(b·262144 + r)·9 + k` of the reshaped array is position `(b, r / 128, 9 (r % 128) + k)` of the distance array, so the
  nine entries over `(b, r)` are the distances from query row `r / 128` to the nine members of candidate group `r % 128`;
  a fold of `min` from `⊤` over nine entries is their left-bracketed minimum.
-/
import proofs.«131465_j15195594293783_1_alg».proof.Proof.Gen.ReferenceIdeal.Read
import proofs.«131465_j15195594293783_1_alg».proof.Proof.Spec
import Idealize.ShloMosaic.PureOps.Reduce

noncomputable section
namespace Cert.RefSide
open Idealize.ShloMosaic Idealize.ShloMosaic.ValueIdx Cert.ReferenceIdeal Cert.ReferenceIdeal.Gen

/-- The word `0x7F800000` denotes `+∞`. -/
theorem ofBits_inf : Ideal.ofBits .f32 0x7F800000#32 = (⊤ : EReal) := by simp [Ideal.ofBits, Ideal.ieee]

/-- Entry `(b, r, k)` of the `[8, 262144, 9]` view sits at flat position `(b·262144 + r)·9 + k`; read back through
    `[8, 2048, 1152]` and then through the query-side broadcasts it is feature `d` of query row `r / 128`. -/
theorem row_idx (b : Fin 8) (r : Fin 262144) (k : Fin 9) (d : Fin 1024) :
    Read.idx_main_v1 (Read.idx_main_v2 (Read.idx_main_v7 (Read.idx_main_v13 (ix3 b r k)))) d = ix3 b (Cert.Spec.rowOf r) d := by
  have hb : b.val < 8 := b.isLt
  have hr : r.val < 262144 := r.isLt
  have hk : k.val < 9 := k.isLt
  funext a
  match a with
  | ⟨0, _⟩ => exact Fin.ext (show ((b.val * 262144 + r.val) * 9 + k.val) / 2359296 = b.val by omega)
  | ⟨1, _⟩ => exact Fin.ext (show ((b.val * 262144 + r.val) * 9 + k.val) / 1152 % 2048 = r.val / 128 by omega)
  | ⟨2, _⟩ => rfl

/-- Through the candidate-side broadcasts the same entry is feature `d` of candidate `9 (r % 128) + k`. -/
theorem cand_idx (b : Fin 8) (r : Fin 262144) (k : Fin 9) (d : Fin 1024) :
    Read.idx_main_v4 (Read.idx_main_v5 (Read.idx_main_v8 (Read.idx_main_v13 (ix3 b r k)))) d
      = ix3 b (Cert.Spec.cand (Cert.Spec.grpOf r) k) d := by
  have hb : b.val < 8 := b.isLt
  have hr : r.val < 262144 := r.isLt
  have hk : k.val < 9 := k.isLt
  funext a
  match a with
  | ⟨0, _⟩ => exact Fin.ext (show ((b.val * 262144 + r.val) * 9 + k.val) / 2359296 = b.val by omega)
  | ⟨1, _⟩ => exact Fin.ext (show ((b.val * 262144 + r.val) * 9 + k.val) % 1152 = 9 * (r.val % 128) + k.val by omega)
  | ⟨2, _⟩ => rfl

/-- The left factor of the inner product at that entry is feature `d` of query row `r / 128`. -/
theorem lrow_idx (b : Fin 8) (r : Fin 262144) (k : Fin 9) (d : Fin 1024) :
    Read.lidx_main_v6 (Read.idx_main_v13 (ix3 b r k)) d = ix3 b (Cert.Spec.rowOf r) d := by
  have hb : b.val < 8 := b.isLt
  have hr : r.val < 262144 := r.isLt
  have hk : k.val < 9 := k.isLt
  funext a
  match a with
  | ⟨0, _⟩ => exact Fin.ext (show ((b.val * 262144 + r.val) * 9 + k.val) / 2359296 = b.val by omega)
  | ⟨1, _⟩ => exact Fin.ext (show ((b.val * 262144 + r.val) * 9 + k.val) / 1152 % 2048 = r.val / 128 by omega)
  | ⟨2, _⟩ => rfl

/-- The right factor is feature `d` of candidate `9 (r % 128) + k`. -/
theorem rcand_idx (b : Fin 8) (r : Fin 262144) (k : Fin 9) (d : Fin 1024) :
    Read.ridx_main_v6 (Read.idx_main_v13 (ix3 b r k)) d = ix3 b (Cert.Spec.cand (Cert.Spec.grpOf r) k) d := by
  have hb : b.val < 8 := b.isLt
  have hr : r.val < 262144 := r.isLt
  have hk : k.val < 9 := k.isLt
  funext a
  match a with
  | ⟨0, _⟩ => exact Fin.ext (show ((b.val * 262144 + r.val) * 9 + k.val) / 2359296 = b.val by omega)
  | ⟨1, _⟩ => exact Fin.ext (show ((b.val * 262144 + r.val) * 9 + k.val) % 1152 = 9 * (r.val % 128) + k.val by omega)
  | ⟨2, _⟩ => rfl

/-- Entry `(b, r, k)` of the reshaped distance array is the squared distance between query row `r / 128` and member `k`
    of candidate group `r % 128`, in batch `b`: the two squared norms (each a sum from zero) minus twice the inner product. -/
theorem entry (x0 : (⟨S8x2048x1024, .f32⟩ : BufTy).Contents (Elt Ideal)) (x1 : (⟨S8x1152x1024, .f32⟩ : BufTy).Contents (Elt Ideal))
    (b : Fin 8) (r : Fin 262144) (k : Fin 9) :
    Read.val_main_v13 (F := Ideal) x0 x1 (ix3 b r k)
      = Cert.Spec.dist x0 x1 b (Cert.Spec.rowOf r) (Cert.Spec.cand (Cert.Spec.grpOf r) k) := by
  rw [Read.val_main_v13_apply, Read.val_main_v12_apply, Read.val_main_v9_apply, Read.val_main_v11_apply, Read.val_main_v7_apply,
    Read.val_main_v8_apply, Read.val_main_v2_apply, Read.val_main_v5_apply, Read.val_main_v1_apply, Read.val_main_v4_apply,
    Read.val_main_v10_apply, Read.val_main_cst_1_apply, Read.val_main_v6_apply, Read.val_main_cst_apply, Read.val_main_cst_0_apply]
  simp only [Read.val_main_v0_apply, Read.val_main_v3_apply, row_idx, cand_idx, lrow_idx, rcand_idx, Ideal.mulf_def, Ideal.addf_def,
    Ideal.subf_def, Ideal.ofBits_def, Ideal.ofBits_zero_f32, zero_add]
  rfl

/-- Dropping the last axis of `[8, 262144, 9]` leaves `[8, 262144]`. -/
theorem hR : S8x262144x9.Reduces [2] S8x262144 := by decide

/-- Inserting coordinate `k` on the dropped axis over `j` gives the index `(j 0, j 1, k)`. -/
theorem lift_eq (j : S8x262144.Idx) (k : Fin (S8x262144x9.size 2)) : hR.lift j k = ix3 (j 0) (j 1) k := by
  funext c
  match c with
  | ⟨0, _⟩ => rfl
  | ⟨1, _⟩ => rfl
  | ⟨2, _⟩ => rfl

/-- Folding the minimum over nine entries from `+∞` is their left-bracketed minimum. -/
theorem fold_min9 (f : Fin 9 → EReal) :
    (Finset.univ : Finset (Fin 9)).fold (FloatOps.minimumf (F := Ideal) (φ := .f32)) (FloatOps.ofBits (F := Ideal) .f32 0x7F800000#32) f
      = Cert.Spec.min9 f := by
  rw [Ideal.ofBits_def, ofBits_inf]
  exact Cert.Spec.fold_min_top f

/-- The minimum over the last axis, from `+∞`, of the reshaped distance array is the array of group values in the flat
    `[8, 262144]` layout: row `r` holds the least of the nine distances of query row `r / 128` to group `r % 128`. -/
theorem groupmin (x0 : (⟨S8x2048x1024, .f32⟩ : BufTy).Contents (Elt Ideal)) (x1 : (⟨S8x1152x1024, .f32⟩ : BufTy).Contents (Elt Ideal)) :
    Read.val_main_v14 (F := Ideal) x0 x1 = Cert.Spec.flatArr x0 x1 := by
  funext j
  unfold Read.val_main_v14
  rw [Host.reduce_eq_fold_single FloatOps.minimumf _ _ reducesTo_S8x262144x9_S8x262144_d2 hR h_S_]
  have hf : (Read.val_main_v13 (F := Ideal) x0 x1 ∘ hR.lift j)
      = fun k : Fin 9 => Cert.Spec.dist x0 x1 (j 0) (Cert.Spec.rowOf (j 1)) (Cert.Spec.cand (Cert.Spec.grpOf (j 1)) k) := by
    funext k
    rw [Function.comp_apply, lift_eq]
    exact entry x0 x1 (j 0) (j 1) k
  rw [hf, Read.val_main_cst_2_apply]
  refine (fold_min9 _).trans ?_
  rfl

end Cert.RefSide
end
-- ==== Proof.Bridge.lean ====
/-
  The two programs' results are one number.

  The reference forms every squared distance, regroups the `[8, 2048, 1152]` array as `[8, 262144, 9]`, takes the least
  of each nine, sums the `[8, 262144]` array of group values from `0` and divides by `2^21`. The kernel's side ends
  with the same group values laid out as `[8, 2048, 128]`, summed from `0` and divided by the same word. A finite sum
  does not depend on the layout of its index set, so the two totals, and the two quotients, agree.
-/
import proofs.«131465_j15195594293783_1_alg».proof.Proof.Gen.ReferenceIdeal.Read
import proofs.«131465_j15195594293783_1_alg».proof.Proof.RefGroupMin
import proofs.«131465_j15195594293783_1_alg».proof.Proof.Spec
import proofs.«131465_j15195594293783_1_alg».proof.Proof.KernelMean

noncomputable section

open Idealize.ShloMosaic Idealize.ShloMosaic.ValueIdx

namespace Cert.Bridge

/-- The total of the group values, started from `0`, is the same whether they are summed over the
    `[8, 2048, 128]` layout or over the flat `[8, 262144]` one. -/
theorem total_eq (x1 : Cert.Spec.SX1.Idx → EReal) (x2 : Cert.Spec.SX2.Idx → EReal)
    (hK : Cert.Spec.SOut.ReducesTo [0, 1, 2] ⟨0, ![]⟩) (hR : Cert.Spec.SFlat.ReducesTo [0, 1] ⟨0, ![]⟩)
    (hu : 0 < (⟨0, ![]⟩ : Shape).numel) (i : (⟨0, ![]⟩ : Shape).Idx) :
    Host.reduceAdd (F := Ideal) (φ := .f32) (Cert.Spec.flatArr x1 x2 : FVec Ideal Cert.Spec.SFlat .f32) (constant (F := Ideal) ⟨0, ![]⟩ .f32 0x00000000#32) hR hu i
      = Host.reduceAdd (F := Ideal) (φ := .f32) (Cert.Spec.outArr x1 x2 : FVec Ideal Cert.Spec.SOut .f32) (constant (F := Ideal) ⟨0, ![]⟩ .f32 0x00000000#32) hK hu i := by
  simp only [Host.reduceAdd, Ideal.hostReduceAdd_def]
  rw [Ideal.hostReduceAdd_total hR (fun b => b.elim0), Ideal.hostReduceAdd_total hK (fun b => b.elim0)]
  exact congrArg (_ + ·) (Cert.Spec.sum_outArr_eq_sum_flatArr x1 x2).symm

/-- The reference's result is the mean of the group values: its grouped minimum is the flat array of group values,
    which it sums from `0` and divides by the count, the same word the kernel's host code divides by. -/
theorem mean_eq (x0 : (⟨Cert.ReferenceIdeal.S8x2048x1024, .f32⟩ : BufTy).Contents (Elt Ideal))
    (x1 : (⟨Cert.ReferenceIdeal.S8x1152x1024, .f32⟩ : BufTy).Contents (Elt Ideal)) :
    Cert.ReferenceIdeal.Read.val_main_v16 (F := Ideal) x0 x1 = Cert.KernelArray.meanOf x0 x1 := by
  unfold Cert.ReferenceIdeal.Read.val_main_v16 Cert.ReferenceIdeal.Read.val_main_v15 Cert.KernelArray.meanOf
  rw [Cert.RefSide.groupmin]
  funext i
  exact congrArg (fun s => FloatOps.hostDivf s (Ideal.ofBits .f32 0x4A000000#32)) (total_eq x0 x1 _ _ _ i)

end Cert.Bridge

end
-- ==== Proof.lean ====
/-
  Grouped nearest-candidate distance, averaged: the kernel and its reference compute one number.

  For `x1 : f32[8, 2048, 1024]` and `x2 : f32[8, 1152, 1024]` both programs form, for each batch, query row and
  candidate row, the squared distance `|q|² + |c|² - 2 ⟨q, c⟩`, take the least over each run of nine consecutive
  candidates, and return the mean of the `8 · 2048 · 128` minima. The reference does it on whole arrays: one batched
  product for the cross terms, a regrouping of the distance array into rows of nine, a minimum along the last axis
  started from `+∞`, a total sum and a division by `2^21`. The kernel first regroups the candidates and their
  squared norms so that member `k` of every group lies in one plane, then, per batch and tile of 256 query rows,
  forms the nine planes' distances by nine matrix products and folds them with a running minimum; the host sums the
  resulting `[8, 2048, 128]` array and divides by the same `2^21`.

  At the ideal instance a float is an extended real and every operation is exact, and the two sides differ only in
  how they arrange the same terms: each distance is the same expression `(|q|² + |c|²) - 2 · ⟨q, c⟩` of the same three
  sums over the 1024 features; a minimum of nine terms does not depend on its bracketing nor on starting from `⊤`;
  and a finite sum does not depend on how its index set is laid out (`(b, n, g) ↦ (b, 128 n + g)`). No law that
  needs finite operands (distributivity, cancellation) is used, so the precondition is never opened.

  The modules: `Spec` states the distances, the group minima and the relayout of their sum; `HostPrefix` reads the
  two regrouped arrays the kernel stages; `KernelPhase` reads the kernel body's output block at an entry;
  `KernelArray` assembles the blocks into the result array and reads the host's mean of it; `RefGroupMin` reads the
  reference's grouped minimum; `Bridge` equates the two means. The idealization rewrote nothing, so
  `preserves` is trivial; the kernel's two frames are the generated ones and the reference's is its generated run.
-/
import proofs.«131465_j15195594293783_1_alg».proof.Defs
import proofs.«131465_j15195594293783_1_alg».proof.Proof.Gen.Kernel
import proofs.«131465_j15195594293783_1_alg».proof.Proof.Gen.Kernel.Skeleton
import proofs.«131465_j15195594293783_1_alg».proof.Proof.Gen.Kernel.Launch
import proofs.«131465_j15195594293783_1_alg».proof.Proof.Gen.Kernel.Points
import proofs.«131465_j15195594293783_1_alg».proof.Proof.Gen.Kernel.Frame
import proofs.«131465_j15195594293783_1_alg».proof.Proof.Gen.KernelIdeal
import proofs.«131465_j15195594293783_1_alg».proof.Proof.Gen.KernelIdeal.Skeleton
import proofs.«131465_j15195594293783_1_alg».proof.Proof.Gen.KernelIdeal.Launch
import proofs.«131465_j15195594293783_1_alg».proof.Proof.Gen.KernelIdeal.Points
import proofs.«131465_j15195594293783_1_alg».proof.Proof.Gen.KernelIdeal.Frame
import proofs.«131465_j15195594293783_1_alg».proof.Proof.Gen.ReferenceIdeal
import proofs.«131465_j15195594293783_1_alg».proof.Proof.Gen.Pre_finite_inputs
import proofs.«131465_j15195594293783_1_alg».proof.Proof.Gen.ReferenceIdeal.Run
import proofs.«131465_j15195594293783_1_alg».proof.Proof.Gen.ReferenceIdeal.Read
import proofs.«131465_j15195594293783_1_alg».proof.Proof.KernelArray
import proofs.«131465_j15195594293783_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: nothing was rewritten. -/
theorem preserves : Cert.preserves_Kernel_KernelIdeal := trivial

/-- From memories that agree on the two arguments both programs end with the mean of the group minima. -/
theorem algebraic : Cert.algebraic_KernelIdeal_ReferenceIdeal := by
  intro m ρ m' ρ' _ hagree
  refine ⟨fun c => Cert.KernelArray.meanOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  exact Cert.Bridge.mean_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
